-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S64x64 : Shape := ⟨2, ![64, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg6 : FVec F S1600000 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S1600000 .f32 := Host.absf main_arg6
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  main_v23

def fn {F : FTy → Type} [FloatOps F] (main_arg0 : FVec F S100000x64 .f32) (main_arg1 : FVec F S50000x64 .f32) (main_arg2 : FVec F S64x64 .f32) (main_arg3 : FVec F S64x64 .f32) (main_arg4 : IVec S1600000 32) (main_arg5 : IVec S1600000 32) (main_arg6 : FVec F S1600000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x64 : Shape := ⟨2, ![100000, 64]⟩
abbrev S50000x64 : Shape := ⟨2, ![50000, 64]⟩
abbrev S64x64 : Shape := ⟨2, ![64, 64]⟩
abbrev S1600000 : Shape := ⟨1, ![1600000]⟩
abbrev S5000x64 : Shape := ⟨2, ![5000, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 43
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S64x64, .f32⟩
  | .hbm, ⟨3, _⟩ => ⟨S64x64, .f32⟩
  | .hbm, ⟨4, _⟩ => ⟨S1600000, .i32⟩
  | .hbm, ⟨5, _⟩ => ⟨S1600000, .i32⟩
  | .hbm, ⟨6, _⟩ => ⟨S1600000, .f32⟩
  | .hbm, ⟨7, _⟩ => ⟨S100000x64, .f32⟩
  | .hbm, ⟨8, _⟩ => ⟨S50000x64, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S1600000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S1600000x64, .f32⟩
  | .hbm, ⟨36, _⟩ => ⟨S1600000x64, .f32⟩
  | .hbm, ⟨37, _⟩ => ⟨S_, .f32⟩
  | .hbm, ⟨38, _⟩ => ⟨S50000x64, .f32⟩
  | .hbm, ⟨39, _⟩ => ⟨S1600000x1, .i32⟩
  | .hbm, ⟨40, _⟩ => ⟨S50000x64, .f32⟩
  | .hbm, ⟨41, _⟩ => ⟨S100000x64, .f32⟩
  | .hbm, ⟨42, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc3_sem0_0 : DmaSem sig := 14
abbrev cc3_sem0_1 : DmaSem sig := 15
abbrev cc3_sem1_0 : DmaSem sig := 16
abbrev cc3_sem1_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S50000x64 : S_.BroadcastsInDim S50000x64 (![] : Fin 0 → Fin S50000x64.rank)
  shapeCasts_S5000x64_S5000x64 : S5000x64.ShapeCasts S5000x64
  dot_S5000x64_S64x64_S5000x64_1_0_0_1_n_n_wf : DotDims.WF S5000x64 S64x64 S5000x64 [1] [0] [0] [1] [] []
  gather_S50000x64_S1600000x1_S1600000x64_1_0_n_n_0_1_164_wf : GatherDims.WF S50000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S1600000x1_S1600000x64_1_0_n_n_0_1_164_wf : GatherDims.WF S100000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v27) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S5000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S64x64 : Shape := ⟨2, ![64, 64]⟩
abbrev S1600000 : Shape := ⟨1, ![1600000]⟩
abbrev S1600000x1 : Shape := ⟨2, ![1600000, 1]⟩
abbrev S_ : Shape := ⟨0, ![]⟩
abbrev S1600000x64 : Shape := ⟨2, ![1600000, 64]⟩

abbrev nBuf : Space → Nat
  | .hbm => 47
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S64x64, .f32⟩
  | .hbm, ⟨3, _⟩ => ⟨S64x64, .f32⟩
  | .hbm, ⟨4, _⟩ => ⟨S1600000, .i32⟩
  | .hbm, ⟨5, _⟩ => ⟨S1600000, .i32⟩
  | .hbm, ⟨6, _⟩ => ⟨S1600000, .f32⟩
  | .hbm, ⟨7, _⟩ => ⟨S100000x64, .f32⟩
  | .hbm, ⟨8, _⟩ => ⟨S50000x64, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S1600000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S1600000x64, .f32⟩
  | .hbm, ⟨36, _⟩ => ⟨S1600000x64, .f32⟩
  | .hbm, ⟨37, _⟩ => ⟨S_, .f32⟩
  | .hbm, ⟨38, _⟩ => ⟨S50000x64, .f32⟩
  | .hbm, ⟨39, _⟩ => ⟨S1600000x1, .i32⟩
  | .hbm, ⟨40, _⟩ => ⟨S50000x64, .f32⟩
  | .hbm, ⟨41, _⟩ => ⟨S_, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S50000x64, .f32⟩
  | .hbm, ⟨46, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_call1_cst : Ref sig .tc := ⟨.hbm, 44, rfl⟩
abbrev main_call1_v0 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S50000x64 : S_.BroadcastsInDim S50000x64 (![] : Fin 0 → Fin S50000x64.rank)
  dot_S100000x64_S64x64_S100000x64_1_0_0_1_n_n_wf : DotDims.WF S100000x64 S64x64 S100000x64 [1] [0] [0] [1] [] []
  dot_S50000x64_S64x64_S50000x64_1_0_0_1_n_n_wf : DotDims.WF S50000x64 S64x64 S50000x64 [1] [0] [0] [1] [] []
  gather_S50000x64_S1600000x1_S1600000x64_1_0_n_n_0_1_164_wf : GatherDims.WF S50000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S1600000x1_S1600000x64_1_0_n_n_0_1_164_wf : GatherDims.WF S100000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Spec.lean ====
/-
  The mathematics both programs compute, over arrays of extended reals.

  `rowsTimes X W` is the product of an [M, 64] array with a [64, 64] array, entry (r, q) the sum over k of
  X (r, k) · W (k, q); `clampBelow X` is the entrywise maximum with zero. A contraction whose dimension numbers contract
  the left operand's axis 1 with the right operand's axis 0, with no batch axis, read at an entry, IS that sum
  (`contraction_apply`): the contraction's positions are the numbers below 64, the left operand is read at
  (row of the entry, position) and the right operand at (position, column of the entry).
-/
import Idealize.ShloMosaic.PureOps.Ideal.Laws
import Idealize.ShloMosaic.Lib.ValueIdx
import proofs.«157449_j73890617360949_1_alg».proof.Proof.LibContraction

noncomputable section

open scoped BigOperators

namespace Cert.Spec

open Idealize.ShloMosaic Idealize.ShloMosaic.ValueIdx Cert.Lib.Contraction

/-- The product of an [M, 64] array and a [64, 64] array. -/
def rowsTimes {M : Nat} (X : (⟨2, ![M, 64]⟩ : Shape).Idx → EReal) (W : (⟨2, ![64, 64]⟩ : Shape).Idx → EReal) :
    (⟨2, ![M, 64]⟩ : Shape).Idx → EReal :=
  fun i => ∑ k : Fin 64, X (ix2 (i 0) k) * W (ix2 k (i 1))

/-- The entrywise maximum with the number the zero word denotes. -/
def clampBelow {s : Shape} (X : s.Idx → EReal) : s.Idx → EReal :=
  fun i => max (X i) (Ideal.ofBits .f32 0x00000000#32)

section
variable {M : Nat} (d : DotDims ⟨2, ![M, 64]⟩ ⟨2, ![64, 64]⟩ ⟨2, ![M, 64]⟩)

/-- At position `k` the left operand is read at (the entry's row, k). -/
theorem lhs_at (hlc : d.lhsContracting = [1]) (hlb : d.lhsBatch = []) (hln : d.lhsNonContracting = [0])
    (j : (⟨2, ![M, 64]⟩ : Shape).Idx) (k : Fin 64) :
    d.lhsIdx j ((contrFin d hlc 64 rfl).symm k) = ix2 (j 0) k := by
  funext a; apply Fin.ext
  match a with
  | ⟨0, _⟩ => exact lhs_free d hlb hln j _ Nat.zero_lt_two
  | ⟨1, _⟩ => exact lhs_contracted d hlc 64 rfl j k

/-- At position `k` the right operand is read at (k, the entry's column). -/
theorem rhs_at (hlc : d.lhsContracting = [1]) (hrc : d.rhsContracting = [0]) (hlb : d.lhsBatch = []) (hrb : d.rhsBatch = [])
    (hln : d.lhsNonContracting = [0]) (hrn : d.rhsNonContracting = [1])
    (j : (⟨2, ![M, 64]⟩ : Shape).Idx) (k : Fin 64) :
    d.rhsIdx j ((contrFin d hlc 64 rfl).symm k) = ix2 k (j 1) := by
  funext a; apply Fin.ext
  match a with
  | ⟨0, _⟩ => exact rhs_contracted d hlc hrc 64 rfl j k
  | ⟨1, _⟩ => exact rhs_free d hlb hrb hln hrn j _ Nat.one_lt_two

/-- The contraction's sum at an entry is the row-by-column sum. -/
theorem contraction_apply (hlc : d.lhsContracting = [1]) (hrc : d.rhsContracting = [0]) (hlb : d.lhsBatch = [])
    (hrb : d.rhsBatch = []) (hln : d.lhsNonContracting = [0]) (hrn : d.rhsNonContracting = [1])
    (X : (⟨2, ![M, 64]⟩ : Shape).Idx → EReal) (W : (⟨2, ![64, 64]⟩ : Shape).Idx → EReal)
    (j : (⟨2, ![M, 64]⟩ : Shape).Idx) :
    ∑ k : d.contr.Idx, X (d.lhsIdx j k) * W (d.rhsIdx j k) = rowsTimes X W j := by
  rw [sum_contr d hlc 64 rfl]
  unfold rowsTimes
  refine Finset.sum_congr rfl fun k _ => ?_
  exact congrArg₂ (· * ·) (congrArg X (lhs_at d hlc hlb hln j k)) (congrArg W (rhs_at d hlc hrc hlb hrb hln hrn j k))

end

end Cert.Spec

end
-- ==== Proof.ProductUser.lean ====
/-
  The first launch: the user product.

  The grid has 20 points; point t reads rows 5000·t … 5000·t + 4999 of the [100000, 64] left array and the whole
  [64, 64] right array, multiplies them (the change of float format before the product is the identity on extended
  reals, and the product accumulates into zero), and writes the [5000, 64] result to the same rows of the output array.
  Entry (r, q) of a block's product is the sum over k of x (r, k) · w (k, q), which is entry (5000·t + r, q) of the
  product of the whole arrays; the 20 blocks tile the output's rows, so after the launch the output array IS that product.
-/
import proofs.«157449_j73890617360949_1_alg».proof.Proof.Gen.KernelIdeal.Frame
import proofs.«157449_j73890617360949_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- A block starts at its own origin. -/
theorem origin0 : (![0, 0] : Fin 2 → Nat) = fun _ => 0 := funext fun a => by fin_cases a <;> rfl

/-- One block's product: entry (r, q) of the body's result is the sum over k of x (r, k) · w (k, q). -/
theorem product0_apply (x : Vec Ideal S5000x64 .f32) (w : Vec Ideal S64x64 .f32) (y : S5000x64.Idx) :
    k0_pay1 x w y = rowsTimes (M := 5000) x w y := by
  unfold k0_pay1
  refine (Ideal.matmul_constant_zero_apply dot_S5000x64_S64x64_S5000x64_1_0_0_1_n_n none (truncf .bf16 x bitsLt_bf16_f32) (truncf .bf16 w bitsLt_bf16_f32) y).trans ?_
  exact contraction_apply (M := 5000) dot_S5000x64_S64x64_S5000x64_1_0_0_1_n_n rfl rfl rfl rfl rfl rfl _ _ y

/-- The index maps over the grid: the left operand's and the output's block row is the point, every block column is 0,
    and the right operand's block is always the one at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

/-- What point `t` writes back is block `t` of the product of the two arrays as the launch finds them. -/
theorem flushed0 (c : Dev nD) (t : Fin cfg0.N) :
    (dat0 V c).flushed 2 t
      = ((cfg0.win 2).blk t).view.read (Elt Ideal) (rowsTimes (M := 100000) (V c main_arg0) (V c main_arg2)) := by
  show (cfg0.win 2).cut (grid0.coords t) ((dat0 V c).after 2 t) = _
  rw [after0_2]
  unfold out0_2
  rw [View.canon_unit_zero origin0]
  simp only [View.ld_unit_zero (S := S5000x64) origin0, View.ld_unit_zero (S := S64x64) origin0]
  funext y
  obtain ⟨e00, e01, e10, e11, e20, e21, ht⟩ := idx_facts0 t
  refine (product0_apply (iblk0 V c 0 t) (iblk0 V c 1 t) y).trans ?_
  show rowsTimes (M := 5000) (iblk0 V c 0 t) (iblk0 V c 1 t) y
      = rowsTimes (M := 100000) (V c main_arg0) (V c main_arg2) (((cfg0.win 2).blk t).view.emb y)
  unfold rowsTimes
  refine Finset.sum_congr rfl fun k _ => ?_
  refine congrArg₂ (· * ·) ?_ ?_
  · -- the left factor: row 5000·t + r of the array, column k
    show V c main_arg0 (((cfg0.win 0).blk t).view.emb (ix2 (y 0) k)) = V c main_arg0 (ix2 ((((cfg0.win 2).blk t).view.emb y) 0) k)
    refine congrArg (V c main_arg0) (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 64 + 1 * k.val = k.val; omega
  · -- the right factor: row k, column q of the array
    show V c main_arg2 (((cfg0.win 1).blk t).view.emb (ix2 k (y 1))) = V c main_arg2 (ix2 k ((((cfg0.win 2).blk t).view.emb y) 1))
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * (y 1).val = win0_2.index t (1 : Fin 2) * 64 + 1 * (y 1).val; omega

/-- An entry of the output array lies in point `t`'s block iff each coordinate lies in the block's range. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row r of the output lies in the block of point r / 5000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by omega⟩
  have htv : t.val = (i 0).val / 5000 := rfl
  obtain ⟨e00, e01, e10, e11, e20, e21, ht⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the launch its output array holds the product of the two arrays it read. -/
theorem product0 (c : Dev nD) :
    (dat0 V c).arrAt 2 cfg0.N = rowsTimes (M := 100000) (V c main_arg0) (V c main_arg2) :=
  (dat0 V c).arrAt_eq_of_cover 2 _ (fun t _ => flushed0 V c t) cover0

end Cert.KernelIdeal.Regions

end
-- ==== Proof.ProductItem.lean ====
/-
  The second launch: the item product.

  The grid has 10 points; point t reads rows 5000·t … 5000·t + 4999 of the [50000, 64] left array and the whole
  [64, 64] right array, multiplies them (the change of float format before the product is the identity on extended
  reals, and the product accumulates into zero), and writes the [5000, 64] result to the same rows of the output array.
  Entry (r, q) of a block's product is the sum over k of x (r, k) · w (k, q), which is entry (5000·t + r, q) of the
  product of the whole arrays; the 10 blocks tile the output's rows, so after the launch the output array IS that product.
-/
import proofs.«157449_j73890617360949_1_alg».proof.Proof.Gen.KernelIdeal.Frame
import proofs.«157449_j73890617360949_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- A block starts at its own origin. -/
theorem origin1 : (![0, 0] : Fin 2 → Nat) = fun _ => 0 := funext fun a => by fin_cases a <;> rfl

/-- One block's product: entry (r, q) of the body's result is the sum over k of x (r, k) · w (k, q). -/
theorem product1_apply (x : Vec Ideal S5000x64 .f32) (w : Vec Ideal S64x64 .f32) (y : S5000x64.Idx) :
    k1_pay1 x w y = rowsTimes (M := 5000) x w y := by
  unfold k1_pay1
  refine (Ideal.matmul_constant_zero_apply dot_S5000x64_S64x64_S5000x64_1_0_0_1_n_n none (truncf .bf16 x bitsLt_bf16_f32) (truncf .bf16 w bitsLt_bf16_f32) y).trans ?_
  exact contraction_apply (M := 5000) dot_S5000x64_S64x64_S5000x64_1_0_0_1_n_n rfl rfl rfl rfl rfl rfl _ _ y

/-- The index maps over the grid: the left operand's and the output's block row is the point, every block column is 0,
    and the right operand's block is always the one at the origin. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- What point `t` writes back is block `t` of the product of the two arrays as the launch finds them. -/
theorem flushed1 (c : Dev nD) (t : Fin cfg1.N) :
    (dat1 V c).flushed 2 t
      = ((cfg1.win 2).blk t).view.read (Elt Ideal) (rowsTimes (M := 50000) (V c main_arg1) (V c main_arg3)) := by
  show (cfg1.win 2).cut (grid1.coords t) ((dat1 V c).after 2 t) = _
  rw [after1_2]
  unfold out1_2
  rw [View.canon_unit_zero origin1]
  simp only [View.ld_unit_zero (S := S5000x64) origin1, View.ld_unit_zero (S := S64x64) origin1]
  funext y
  obtain ⟨e00, e01, e10, e11, e20, e21, ht⟩ := idx_facts1 t
  refine (product1_apply (iblk1 V c 0 t) (iblk1 V c 1 t) y).trans ?_
  show rowsTimes (M := 5000) (iblk1 V c 0 t) (iblk1 V c 1 t) y
      = rowsTimes (M := 50000) (V c main_arg1) (V c main_arg3) (((cfg1.win 2).blk t).view.emb y)
  unfold rowsTimes
  refine Finset.sum_congr rfl fun k _ => ?_
  refine congrArg₂ (· * ·) ?_ ?_
  · -- the left factor: row 5000·t + r of the array, column k
    show V c main_arg1 (((cfg1.win 0).blk t).view.emb (ix2 (y 0) k)) = V c main_arg1 (ix2 ((((cfg1.win 2).blk t).view.emb y) 0) k)
    refine congrArg (V c main_arg1) (funext fun a => Fin.ext ?_)
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 64 + 1 * k.val = k.val; omega
  · -- the right factor: row k, column q of the array
    show V c main_arg3 (((cfg1.win 1).blk t).view.emb (ix2 k (y 1))) = V c main_arg3 (ix2 k ((((cfg1.win 2).blk t).view.emb y) 1))
    refine congrArg (V c main_arg3) (funext fun a => Fin.ext ?_)
    match a with
    | ⟨0, _⟩ => show win1_1.index t (0 : Fin 2) * 64 + 1 * k.val = k.val; omega
    | ⟨1, _⟩ => show win1_1.index t (1 : Fin 2) * 64 + 1 * (y 1).val = win1_2.index t (1 : Fin 2) * 64 + 1 * (y 1).val; omega

/-- An entry of the output array lies in point `t`'s block iff each coordinate lies in the block's range. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v1).slice (win1_2.rect t)).set ↔ _
  rw [View.set_slice_whole, Rect.mem_set_unit]
  exact Iff.rfl

/-- Row r of the output lies in the block of point r / 5000. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  let t : Fin cfg1.N := ⟨(i 0).val / 5000, by omega⟩
  have htv : t.val = (i 0).val / 5000 := rfl
  obtain ⟨e00, e01, e10, e11, e20, e21, ht⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the launch its output array holds the product of the two arrays it read. -/
theorem product1 (c : Dev nD) :
    (dat1 V c).arrAt 2 cfg1.N = rowsTimes (M := 50000) (V c main_arg1) (V c main_arg3) :=
  (dat1 V c).arrAt_eq_of_cover 2 _ (fun t _ => flushed1 V c t) cover1

end Cert.KernelIdeal.Regions

end
-- ==== Proof.ClampUser.lean ====
/-
  The third launch: the user messages clamped below at zero.

  The grid has 20 points; point t reads rows 5000·t … 5000·t + 4999 of the [100000, 64] input array, takes the
  maximum of every entry with zero (the reshape in the body is to the same shape, hence the identity), and writes the
  result to the same rows of the output array. The 20 blocks tile the rows, so after the launch the output array is
  the entrywise maximum of the input array with zero.
-/
import proofs.«157449_j73890617360949_1_alg».proof.Proof.Gen.KernelIdeal.Frame
import proofs.«157449_j73890617360949_1_alg».proof.Proof.Spec
import Idealize.ShloMosaic.Lib.Pipeline.Value
import Idealize.ShloMosaic.Lib.ValueIdx

set_option maxRecDepth 16384

noncomputable section

open scoped BigOperators

namespace Cert.KernelIdeal.Regions

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- A block starts at its own origin. -/
theorem origin2 : (![0, 0] : Fin 2 → Nat) = fun _ => 0 := funext fun a => by fin_cases a <;> rfl

/-- One block's result: every entry is the maximum of the loaded entry with zero. -/
theorem clamp2_apply (x : Vec Ideal S5000x64 .f32) (y : S5000x64.Idx) :
    k2_pay1 x y = clampBelow (s := S5000x64) x y := by
  unfold k2_pay1
  rw [shapeCast_self]
  rfl

/-- The index maps over the grid: the input's and the output's block row is the point, every block column is 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0 ∧ t.val < 20 :=
  (by decide +kernel : ∀ t : Fin grid2.N, _)

/-- What point `t` writes back is block `t` of the clamped input array as the launch finds it. -/
theorem flushed2 (c : Dev nD) (t : Fin cfg2.N) :
    (dat2 V c).flushed 1 t
      = ((cfg2.win 1).blk t).view.read (Elt Ideal) (clampBelow (s := S100000x64) (V c main_v14)) := by
  show (cfg2.win 1).cut (grid2.coords t) ((dat2 V c).after 1 t) = _
  rw [after2_1]
  unfold out2_1
  rw [View.canon_unit_zero origin2]
  simp only [View.ld_unit_zero (S := S5000x64) origin2]
  funext y
  obtain ⟨e00, e01, e10, e11, ht⟩ := idx_facts2 t
  refine (clamp2_apply (iblk2 V c 0 t) y).trans ?_
  show clampBelow (s := S5000x64) (iblk2 V c 0 t) y
      = clampBelow (s := S100000x64) (V c main_v14) (((cfg2.win 1).blk t).view.emb y)
  unfold clampBelow
  refine congrArg (max · _) ?_
  show V c main_v14 (((cfg2.win 0).blk t).view.emb y) = V c main_v14 (((cfg2.win 1).blk t).view.emb y)
  refine congrArg (V c main_v14) (funext fun a => Fin.ext ?_)
  match a with
  | ⟨0, _⟩ => show win2_0.index t (0 : Fin 2) * 5000 + 1 * (y 0).val = win2_1.index t (0 : Fin 2) * 5000 + 1 * (y 0).val; omega
  | ⟨1, _⟩ => show win2_0.index t (1 : Fin 2) * 64 + 1 * (y 1).val = win2_1.index t (1 : Fin 2) * 64 + 1 * (y 1).val; omega

/-- An entry of the output array lies in point `t`'s block iff each coordinate lies in the block's range. -/
theorem mem_blk2 (t : Fin cfg2.N) (i : S100000x64.Idx) :
    i ∈ ((cfg2.win 1).blk t).view.set ↔ ∀ a : Fin 2, win2_1.index t a * S5000x64.size a ≤ (i a).val ∧ (i a).val < win2_1.index t a * S5000x64.size a + S5000x64.size a := by
  show i ∈ ((View.whole main_v28).slice (win2_1.rect t)).set ↔ _
  rw [View.set_slice_whole, Rect.mem_set_unit]
  exact Iff.rfl

/-- Row r of the output lies in the block of point r / 5000. -/
theorem cover2 (i : S100000x64.Idx) : ∃ t : Fin cfg2.N, (cfg2.win 1).flush t = true ∧ i ∈ ((cfg2.win 1).blk t).view.set := by
  have hi0 : (i 0).val < 100000 := (i 0).isLt
  have hi1 : (i 1).val < 64 := (i 1).isLt
  have hN : cfg2.N = 20 := N_2
  let t : Fin cfg2.N := ⟨(i 0).val / 5000, by omega⟩
  have htv : t.val = (i 0).val / 5000 := rfl
  obtain ⟨e00, e01, e10, e11, ht⟩ := idx_facts2 t
  refine ⟨t, flush2_1 t, ?_⟩
  rw [mem_blk2]
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 64 ≤ (i 1).val ∧ (i 1).val < win2_1.index t (1 : Fin 2) * 64 + 64; omega

/-- After the launch its output array holds the input array clamped below at zero. -/
theorem clamp2 (c : Dev nD) :
    (dat2 V c).arrAt 1 cfg2.N = clampBelow (s := S100000x64) (V c main_v14) :=
  (dat2 V c).arrAt_eq_of_cover 1 _ (fun t _ => flushed2 V c t) cover2

end Cert.KernelIdeal.Regions

end
-- ==== Proof.ClampItem.lean ====
/-
  The fourth launch: the item messages clamped below at zero.

  The grid has 10 points; point t reads rows 5000·t … 5000·t + 4999 of the [50000, 64] input array, takes the
  maximum of every entry with zero (the reshape in the body is to the same shape, hence the identity), and writes the
  result to the same rows of the output array. The 10 blocks tile the rows, so after the launch the output array is
  the entrywise maximum of the input array with zero.
-/
import proofs.«157449_j73890617360949_1_alg».proof.Proof.Gen.KernelIdeal.Frame
import proofs.«157449_j73890617360949_1_alg».proof.Proof.Spec
import Idealize.ShloMosaic.Lib.Pipeline.Value
import Idealize.ShloMosaic.Lib.ValueIdx

set_option maxRecDepth 16384

noncomputable section

open scoped BigOperators

namespace Cert.KernelIdeal.Regions

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- A block starts at its own origin. -/
theorem origin3 : (![0, 0] : Fin 2 → Nat) = fun _ => 0 := funext fun a => by fin_cases a <;> rfl

/-- One block's result: every entry is the maximum of the loaded entry with zero. -/
theorem clamp3_apply (x : Vec Ideal S5000x64 .f32) (y : S5000x64.Idx) :
    k3_pay1 x y = clampBelow (s := S5000x64) x y := by
  unfold k3_pay1
  rw [shapeCast_self]
  rfl

/-- The index maps over the grid: the input's and the output's block row is the point, every block column is 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0 ∧ t.val < 10 :=
  (by decide +kernel : ∀ t : Fin grid3.N, _)

/-- What point `t` writes back is block `t` of the clamped input array as the launch finds it. -/
theorem flushed3 (c : Dev nD) (t : Fin cfg3.N) :
    (dat3 V c).flushed 1 t
      = ((cfg3.win 1).blk t).view.read (Elt Ideal) (clampBelow (s := S50000x64) (V c main_v27)) := by
  show (cfg3.win 1).cut (grid3.coords t) ((dat3 V c).after 1 t) = _
  rw [after3_1]
  unfold out3_1
  rw [View.canon_unit_zero origin3]
  simp only [View.ld_unit_zero (S := S5000x64) origin3]
  funext y
  obtain ⟨e00, e01, e10, e11, ht⟩ := idx_facts3 t
  refine (clamp3_apply (iblk3 V c 0 t) y).trans ?_
  show clampBelow (s := S5000x64) (iblk3 V c 0 t) y
      = clampBelow (s := S50000x64) (V c main_v27) (((cfg3.win 1).blk t).view.emb y)
  unfold clampBelow
  refine congrArg (max · _) ?_
  show V c main_v27 (((cfg3.win 0).blk t).view.emb y) = V c main_v27 (((cfg3.win 1).blk t).view.emb y)
  refine congrArg (V c main_v27) (funext fun a => Fin.ext ?_)
  match a with
  | ⟨0, _⟩ => show win3_0.index t (0 : Fin 2) * 5000 + 1 * (y 0).val = win3_1.index t (0 : Fin 2) * 5000 + 1 * (y 0).val; omega
  | ⟨1, _⟩ => show win3_0.index t (1 : Fin 2) * 64 + 1 * (y 1).val = win3_1.index t (1 : Fin 2) * 64 + 1 * (y 1).val; omega

/-- An entry of the output array lies in point `t`'s block iff each coordinate lies in the block's range. -/
theorem mem_blk3 (t : Fin cfg3.N) (i : S50000x64.Idx) :
    i ∈ ((cfg3.win 1).blk t).view.set ↔ ∀ a : Fin 2, win3_1.index t a * S5000x64.size a ≤ (i a).val ∧ (i a).val < win3_1.index t a * S5000x64.size a + S5000x64.size a := by
  show i ∈ ((View.whole main_v29).slice (win3_1.rect t)).set ↔ _
  rw [View.set_slice_whole, Rect.mem_set_unit]
  exact Iff.rfl

/-- Row r of the output lies in the block of point r / 5000. -/
theorem cover3 (i : S50000x64.Idx) : ∃ t : Fin cfg3.N, (cfg3.win 1).flush t = true ∧ i ∈ ((cfg3.win 1).blk t).view.set := by
  have hi0 : (i 0).val < 50000 := (i 0).isLt
  have hi1 : (i 1).val < 64 := (i 1).isLt
  have hN : cfg3.N = 10 := N_3
  let t : Fin cfg3.N := ⟨(i 0).val / 5000, by omega⟩
  have htv : t.val = (i 0).val / 5000 := rfl
  obtain ⟨e00, e01, e10, e11, ht⟩ := idx_facts3 t
  refine ⟨t, flush3_1 t, ?_⟩
  rw [mem_blk3]
  intro a
  match a with
  | ⟨0, _⟩ => show win3_1.index t (0 : Fin 2) * 5000 ≤ (i 0).val ∧ (i 0).val < win3_1.index t (0 : Fin 2) * 5000 + 5000; omega
  | ⟨1, _⟩ => show win3_1.index t (1 : Fin 2) * 64 ≤ (i 1).val ∧ (i 1).val < win3_1.index t (1 : Fin 2) * 64 + 64; omega

/-- After the launch its output array holds the input array clamped below at zero. -/
theorem clamp3 (c : Dev nD) :
    (dat3 V c).arrAt 1 cfg3.N = clampBelow (s := S50000x64) (V c main_v27) :=
  (dat3 V c).arrAt_eq_of_cover 1 _ (fun t _ => flushed3 V c t) cover3

end Cert.KernelIdeal.Regions

end
-- ==== Proof.KernelMessages.lean ====
/-
  The kernel program between its four launches, and its two results.

  The two product launches leave the user and item products in their output arrays; the host stretch between the second
  and third launch is the edge-message chain (`toUsers`, `toItems`: named here, never opened) applied to those
  products and to the three edge arrays, which no launch and no host operation writes; the last two launches clamp the
  two message arrays below at zero. Reading the boundary contents back from the last boundary to the launch memory gives
  each result as one expression of the seven arguments.
-/
import proofs.«157449_j73890617360949_1_alg».proof.Proof.Gen.KernelIdeal.Frame
import proofs.«157449_j73890617360949_1_alg».proof.Proof.Spec
import proofs.«157449_j73890617360949_1_alg».proof.Proof.ProductUser
import proofs.«157449_j73890617360949_1_alg».proof.Proof.ProductItem
import proofs.«157449_j73890617360949_1_alg».proof.Proof.ClampUser
import proofs.«157449_j73890617360949_1_alg».proof.Proof.ClampItem
import Idealize.ShloMosaic.Lib.StableHlo.Run

set_option maxRecDepth 16384

noncomputable section

open scoped BigOperators

namespace Cert.KernelIdeal.Messages

open Idealize.ShloMosaic Idealize.ShloMosaic.TcCoe
open Idealize.SL Idealize.SL.Sem
open Cert.KernelIdeal Cert.KernelIdeal.Gen Cert.KernelIdeal.Regions Cert.Spec

section Chain
variable {F : FTy → Type} [FloatOps F]

/-- The messages into the user rows: edge e adds vals e · xwItem[cols e] (a negative column index counted from the
    end) to row rows e of an all-zero [100000, 64] array. -/
def toUsers (xwItem : (⟨S50000x64, .f32⟩ : BufTy).Contents (Elt F)) (rows cols : (⟨S1600000, .i32⟩ : BufTy).Contents (Elt F))
    (vals : (⟨S1600000, .f32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 rows) (mulf (broadcastInDim S1600000x64 ![0, 1] bcast_S1600000x1_S1600000x64_0_1 (broadcastInDim S1600000x1 ![0] bcast_S1600000_S1600000x1_0 vals)) (Host.gather gather_S50000x64_S1600000x1_S1600000x64_1_0_n_n_0_1_164 xwItem (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 50000#32))) cols))))

/-- The messages into the item rows: edge e adds vals e · xwUser[rows e] (a negative row index counted from the end)
    to row cols e of an all-zero [50000, 64] array. -/
def toItems (xwUser : (⟨S100000x64, .f32⟩ : BufTy).Contents (Elt F)) (rows cols : (⟨S1600000, .i32⟩ : BufTy).Contents (Elt F))
    (vals : (⟨S1600000, .f32⟩ : BufTy).Contents (Elt F)) : (⟨S50000x64, .f32⟩ : BufTy).Contents (Elt F) :=
  Host.scatterAdd scatter_S50000x64_S1600000x1_S1600000x64_1_0_0_1 (broadcastInDim S50000x64 ![] bcast_S_S50000x64 (constant S_ .f32 0x00000000#32)) (broadcastInDim S1600000x1 ![0] bcast_S1600000_S1600000x1_0 cols) (mulf (broadcastInDim S1600000x64 ![0, 1] bcast_S1600000x1_S1600000x64_0_1 (broadcastInDim S1600000x1 ![0] bcast_S1600000_S1600000x1_0 vals)) (Host.gather gather_S100000x64_S1600000x1_S1600000x64_1_0_n_n_0_1_164 xwUser (broadcastInDim S1600000x1 ![0] bcast_S1600000_S1600000x1_0 (select (cmpi .slt rows (broadcastInDim S1600000 ![] bcast_S_S1600000 (constantI S_ 32 0#32))) (addi rows (broadcastInDim S1600000 ![] bcast_S_S1600000 (constantI S_ 32 100000#32))) rows))))

end Chain

variable (m : (ℓ : Loc nD τ sig) → Buf (Elt Ideal) ℓ) (ρ : Dev nD → PrngReg)

/-! ## The arguments at the boundary before the host stretch: as launched -/

theorem atW1_arg1 (c : Dev nD) : W1 m ρ c (Proc.devRef .tc main_arg1) = m ((c : Thread nD τ).loc main_arg1) :=
  W1_of_ne m ρ c main_arg1 (by decide)
theorem atW1_arg3 (c : Dev nD) : W1 m ρ c (Proc.devRef .tc main_arg3) = m ((c : Thread nD τ).loc main_arg3) :=
  W1_of_ne m ρ c main_arg3 (by decide)
theorem atW2_arg4 (c : Dev nD) : W2 m ρ c (Proc.devRef .tc main_arg4) = m ((c : Thread nD τ).loc main_arg4) :=
  (W2_of_ne m ρ c main_arg4 (by decide)).trans (W1_of_ne m ρ c main_arg4 (by decide))
theorem atW2_arg5 (c : Dev nD) : W2 m ρ c (Proc.devRef .tc main_arg5) = m ((c : Thread nD τ).loc main_arg5) :=
  (W2_of_ne m ρ c main_arg5 (by decide)).trans (W1_of_ne m ρ c main_arg5 (by decide))
theorem atW2_arg6 (c : Dev nD) : W2 m ρ c (Proc.devRef .tc main_arg6) = m ((c : Thread nD τ).loc main_arg6) :=
  (W2_of_ne m ρ c main_arg6 (by decide)).trans (W1_of_ne m ρ c main_arg6 (by decide))

/-! ## The two products at the boundary before the host stretch -/

/-- The first launch's output array, untouched by the second launch, holds the user product. -/
theorem atW2_userProduct (c : Dev nD) :
    W2 m ρ c (Proc.devRef .tc main_v0)
      = rowsTimes (M := 100000) (m ((c : Thread nD τ).loc main_arg0)) (m ((c : Thread nD τ).loc main_arg2)) :=
  calc W2 m ρ c (Proc.devRef .tc main_v0)
    _ = W1 m ρ c (Proc.devRef .tc main_v0) := W2_of_ne m ρ c main_v0 (by decide)
    _ = (dat0 (V0 m ρ) c).arrAt 2 cfg0.N := W1_arr m ρ c 2
    _ = _ := product0 (V0 m ρ) c

/-- The second launch's output array holds the item product. -/
theorem atW2_itemProduct (c : Dev nD) :
    W2 m ρ c (Proc.devRef .tc main_v1)
      = rowsTimes (M := 50000) (m ((c : Thread nD τ).loc main_arg1)) (m ((c : Thread nD τ).loc main_arg3)) :=
  calc W2 m ρ c (Proc.devRef .tc main_v1)
    _ = (dat1 (V1 m ρ) c).arrAt 2 cfg1.N := W2_arr m ρ c 2
    _ = rowsTimes (M := 50000) (V1 m ρ c main_arg1) (V1 m ρ c main_arg3) := product1 (V1 m ρ) c
    _ = _ := by rw [show V1 m ρ c main_arg1 = _ from atW1_arg1 m ρ c, show V1 m ρ c main_arg3 = _ from atW1_arg3 m ρ c]

/-! ## After the host stretch -/

/-- The user messages after the host stretch, over the contents before it. -/
theorem atW3_users (c : Dev nD) :
    W3 m ρ c (Proc.devRef .tc main_v14)
      = toUsers (F := Ideal) (W2 m ρ c (Proc.devRef .tc main_v1)) (W2 m ρ c (Proc.devRef .tc main_arg4))
          (W2 m ρ c (Proc.devRef .tc main_arg5)) (W2 m ρ c (Proc.devRef .tc main_arg6)) := by
  show StableHlo.after hostOps2 (W2 m ρ c) (Proc.devRef .tc main_v14) = _
  after_results_simp
  rfl

/-- The item messages after the host stretch, over the contents before it. -/
theorem atW3_items (c : Dev nD) :
    W3 m ρ c (Proc.devRef .tc main_v27)
      = toItems (F := Ideal) (W2 m ρ c (Proc.devRef .tc main_v0)) (W2 m ρ c (Proc.devRef .tc main_arg4))
          (W2 m ρ c (Proc.devRef .tc main_arg5)) (W2 m ρ c (Proc.devRef .tc main_arg6)) := by
  show StableHlo.after hostOps2 (W2 m ρ c) (Proc.devRef .tc main_v27) = _
  after_results_simp
  rfl

/-! ## The two results at the last boundary -/

/-- The first result: the third launch's output array, untouched by the fourth launch. -/
theorem result_users (c : Dev nD) :
    W5 m ρ c (Proc.devRef .tc main_v28)
      = clampBelow (toUsers (F := Ideal) (rowsTimes (M := 50000) (m ((c : Thread nD τ).loc main_arg1)) (m ((c : Thread nD τ).loc main_arg3)))
          (m ((c : Thread nD τ).loc main_arg4)) (m ((c : Thread nD τ).loc main_arg5)) (m ((c : Thread nD τ).loc main_arg6))) :=
  calc W5 m ρ c (Proc.devRef .tc main_v28)
    _ = W4 m ρ c (Proc.devRef .tc main_v28) := W5_of_ne m ρ c main_v28 (by decide)
    _ = (dat2 (V3 m ρ) c).arrAt 1 cfg2.N := W4_arr m ρ c 1
    _ = clampBelow (V3 m ρ c main_v14) := clamp2 (V3 m ρ) c
    _ = _ := by
      rw [show V3 m ρ c main_v14 = _ from atW3_users m ρ c, atW2_itemProduct, atW2_arg4, atW2_arg5, atW2_arg6]

/-- The second result: the fourth launch's output array; its input was left alone by the third launch. -/
theorem result_items (c : Dev nD) :
    W5 m ρ c (Proc.devRef .tc main_v29)
      = clampBelow (toItems (F := Ideal) (rowsTimes (M := 100000) (m ((c : Thread nD τ).loc main_arg0)) (m ((c : Thread nD τ).loc main_arg2)))
          (m ((c : Thread nD τ).loc main_arg4)) (m ((c : Thread nD τ).loc main_arg5)) (m ((c : Thread nD τ).loc main_arg6))) :=
  calc W5 m ρ c (Proc.devRef .tc main_v29)
    _ = (dat3 (V4 m ρ) c).arrAt 1 cfg3.N := W5_arr m ρ c 1
    _ = clampBelow (V4 m ρ c main_v27) := clamp3 (V4 m ρ) c
    _ = clampBelow (W3 m ρ c (Proc.devRef .tc main_v27)) := by
      rw [show V4 m ρ c main_v27 = W3 m ρ c (Proc.devRef .tc main_v27) from W4_of_ne m ρ c main_v27 (by decide)]
    _ = _ := by
      rw [atW3_items m ρ c, atW2_userProduct, atW2_arg4, atW2_arg5, atW2_arg6]

end Cert.KernelIdeal.Messages

end
-- ==== Proof.RefValue.lean ====
/-
  What the reference computes, in the vocabulary of Spec.lean.

  Its two leading contractions are row-by-column products (`rowsTimes`); its last two operations take the entrywise
  maximum with zero (`clampBelow`); everything in between is the edge-message chain `toUsers` / `toItems`, which this
  file only NAMES and never opens: every edge e = (rows e, cols e, vals e) sends vals e times the row cols e of the item
  product to user row rows e (and, in the other direction, vals e times the row rows e of the user product to item row
  cols e); the messages arriving at a row are added up.
-/
import proofs.«157449_j73890617360949_1_alg».proof.Proof.Gen.ReferenceIdeal.Run
import proofs.«157449_j73890617360949_1_alg».proof.Proof.Spec

noncomputable section

namespace Cert.ReferenceIdeal.Messages

open Cert.ReferenceIdeal Cert.ReferenceIdeal.Gen Idealize.ShloMosaic Idealize.ShloMosaic.TcCoe Idealize.SL.Sem Cert.Spec

section Chain
variable {F : FTy → Type} [FloatOps F]

/-- The messages into the user rows: edge e adds vals e · xwItem[cols e] (a negative column index counted from the
    end) to row rows e of an all-zero [100000, 64] array. -/
def toUsers (xwItem : (⟨S50000x64, .f32⟩ : BufTy).Contents (Elt F)) (rows cols : (⟨S1600000, .i32⟩ : BufTy).Contents (Elt F))
    (vals : (⟨S1600000, .f32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 rows) (mulf (broadcastInDim S1600000x64 ![0, 1] bcast_S1600000x1_S1600000x64_0_1 (broadcastInDim S1600000x1 ![0] bcast_S1600000_S1600000x1_0 vals)) (Host.gather gather_S50000x64_S1600000x1_S1600000x64_1_0_n_n_0_1_164 xwItem (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 50000#32))) cols))))

/-- The messages into the item rows: edge e adds vals e · xwUser[rows e] (a negative row index counted from the end)
    to row cols e of an all-zero [50000, 64] array. -/
def toItems (xwUser : (⟨S100000x64, .f32⟩ : BufTy).Contents (Elt F)) (rows cols : (⟨S1600000, .i32⟩ : BufTy).Contents (Elt F))
    (vals : (⟨S1600000, .f32⟩ : BufTy).Contents (Elt F)) : (⟨S50000x64, .f32⟩ : BufTy).Contents (Elt F) :=
  Host.scatterAdd scatter_S50000x64_S1600000x1_S1600000x64_1_0_0_1 (broadcastInDim S50000x64 ![] bcast_S_S50000x64 (constant S_ .f32 0x00000000#32)) (broadcastInDim S1600000x1 ![0] bcast_S1600000_S1600000x1_0 cols) (mulf (broadcastInDim S1600000x64 ![0, 1] bcast_S1600000x1_S1600000x64_0_1 (broadcastInDim S1600000x1 ![0] bcast_S1600000_S1600000x1_0 vals)) (Host.gather gather_S100000x64_S1600000x1_S1600000x64_1_0_n_n_0_1_164 xwUser (broadcastInDim S1600000x1 ![0] bcast_S1600000_S1600000x1_0 (select (cmpi .slt rows (broadcastInDim S1600000 ![] bcast_S_S1600000 (constantI S_ 32 0#32))) (addi rows (broadcastInDim S1600000 ![] bcast_S_S1600000 (constantI S_ 32 100000#32))) rows))))

end Chain

/-- The user-side contraction is the row-by-column product. -/
theorem product_user (X : FVec Ideal S100000x64 .f32) (W : FVec Ideal S64x64 .f32) :
    Host.dotGeneral (F := Ideal) dot_S100000x64_S64x64_S100000x64_1_0_0_1_n_n none X W = rowsTimes (M := 100000) X W := by
  funext j
  simp only [Host.dotGeneral]
  rw [Ideal.dotGeneral_apply]
  exact contraction_apply (M := 100000) dot_S100000x64_S64x64_S100000x64_1_0_0_1_n_n rfl rfl rfl rfl rfl rfl _ _ j

/-- The item-side contraction is the row-by-column product. -/
theorem product_item (X : FVec Ideal S50000x64 .f32) (W : FVec Ideal S64x64 .f32) :
    Host.dotGeneral (F := Ideal) dot_S50000x64_S64x64_S50000x64_1_0_0_1_n_n none X W = rowsTimes (M := 50000) X W := by
  funext j
  simp only [Host.dotGeneral]
  rw [Ideal.dotGeneral_apply]
  exact contraction_apply (M := 50000) dot_S50000x64_S64x64_S50000x64_1_0_0_1_n_n rfl rfl rfl rfl rfl rfl _ _ j

/-- The maximum with the broadcast zero scalar is the entrywise maximum with zero. -/
theorem clamp_user (A : FVec Ideal S100000x64 .f32) :
    maximumf (F := Ideal) A (broadcastInDim S100000x64 ![] bcast_S_S100000x64 (constant (F := Ideal) S_ .f32 0x00000000#32)) = clampBelow A := rfl

theorem clamp_item (A : FVec Ideal S50000x64 .f32) :
    maximumf (F := Ideal) A (broadcastInDim S50000x64 ![] bcast_S_S50000x64 (constant (F := Ideal) S_ .f32 0x00000000#32)) = clampBelow A := rfl

variable (m : (ℓ : Loc nD τ sig) → Buf (Elt Ideal) ℓ) (ρ : Dev nD → PrngReg)

/-- Every weakly fair execution of the reference terminates; its first result is the clamped user messages of the item
    product, its second the clamped item messages of the user product, and its arguments are unchanged. -/
theorem run : θ_run (defs (F := Ideal)) (onTc (τ := τ) (main (F := Ideal))) ⟨m, fun _ => 0, ρ⟩ fun r => ∀ c : Dev nD,
      r.2.mem ((c.tc : Thread nD τ).loc main_v28)
        = clampBelow (toUsers (F := Ideal) (rowsTimes (M := 50000) (m ((c.tc : Thread nD τ).loc main_arg1)) (m ((c.tc : Thread nD τ).loc main_arg3)))
            (m ((c.tc : Thread nD τ).loc main_arg4)) (m ((c.tc : Thread nD τ).loc main_arg5)) (m ((c.tc : Thread nD τ).loc main_arg6)))
      ∧ r.2.mem ((c.tc : Thread nD τ).loc main_v29)
        = clampBelow (toItems (F := Ideal) (rowsTimes (M := 100000) (m ((c.tc : Thread nD τ).loc main_arg0)) (m ((c.tc : Thread nD τ).loc main_arg2)))
            (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun r h c => ⟨(h c).1.trans (by rw [product_item, clamp_user]; rfl),
      (h c).2.1.trans (by rw [product_user, clamp_item]; rfl), (h c).2.2⟩)
    (Cert.ReferenceIdeal.Value.run (F := Ideal) m ρ)

end Cert.ReferenceIdeal.Messages

end
-- ==== Proof.lean ====
/-
  The kernel program and the reference compute the same two arrays.

  Both multiply the user features by the user weights and the item features by the item weights (an [M, 64] array
  times a [64, 64] array, entry (r, q) the sum over k of x (r, k) · w (k, q)), send along every edge the edge's value
  times the other side's product row and add up what arrives at each row, and clamp the two message arrays below at
  zero. The kernel program does the two products and the two clamps in launches over blocks of 5000 rows, the
  reference with whole-array operations; the edge-message chain in between is the same list of operations in both.

  Over the extended reals a change of float format is the identity and a product accumulated into zero is the plain
  sum, so each product launch leaves exactly the whole-array product (ProductUser, ProductItem), each clamp launch
  exactly the entrywise maximum with zero (ClampUser, ClampItem); KernelMessages reads the kernel program's results
  back through its launches and its host stretch, RefValue restates the reference's generated run in the same words,
  and the two expressions differ only in which program's copy of the chain's dimension records they name: the copies
  are equal by definition (`users_same`, `items_same`). No algebraic law is used, so the precondition is never opened.
  The frames are the generated ones; the idealization rewrote nothing, so `preserves` is `True`.
-/
import proofs.«157449_j73890617360949_1_alg».proof.Defs
import proofs.«157449_j73890617360949_1_alg».proof.Proof.Gen.Kernel
import proofs.«157449_j73890617360949_1_alg».proof.Proof.Gen.Kernel.Frame
import proofs.«157449_j73890617360949_1_alg».proof.Proof.Gen.KernelIdeal
import proofs.«157449_j73890617360949_1_alg».proof.Proof.Gen.KernelIdeal.Frame
import proofs.«157449_j73890617360949_1_alg».proof.Proof.Gen.ReferenceIdeal
import proofs.«157449_j73890617360949_1_alg».proof.Proof.Gen.ReferenceIdeal.Run
import proofs.«157449_j73890617360949_1_alg».proof.Proof.Gen.Pre_finite_inputs
import proofs.«157449_j73890617360949_1_alg».proof.Proof.KernelIdealRun
import proofs.«157449_j73890617360949_1_alg».proof.Proof.KernelMessages
import proofs.«157449_j73890617360949_1_alg».proof.Proof.RefValue
import Idealize.ShloMosaic.Adequacy
import Idealize.ShloMosaic.Init

noncomputable section

namespace Cert.Proof

open Idealize.ShloMosaic Idealize.ShloMosaic.TcCoe Idealize.SL.Sem Cert.Spec

/-- The two programs' copies of the user-message chain are one function. -/
theorem users_same (xwItem : (⟨Cert.KernelIdeal.S50000x64, .f32⟩ : BufTy).Contents (Elt Ideal))
    (rows cols : (⟨Cert.KernelIdeal.S1600000, .i32⟩ : BufTy).Contents (Elt Ideal))
    (vals : (⟨Cert.KernelIdeal.S1600000, .f32⟩ : BufTy).Contents (Elt Ideal)) :
    Cert.ReferenceIdeal.Messages.toUsers (F := Ideal) xwItem rows cols vals
      = Cert.KernelIdeal.Messages.toUsers (F := Ideal) xwItem rows cols vals := rfl

/-- The two programs' copies of the item-message chain are one function. -/
theorem items_same (xwUser : (⟨Cert.KernelIdeal.S100000x64, .f32⟩ : BufTy).Contents (Elt Ideal))
    (rows cols : (⟨Cert.KernelIdeal.S1600000, .i32⟩ : BufTy).Contents (Elt Ideal))
    (vals : (⟨Cert.KernelIdeal.S1600000, .f32⟩ : BufTy).Contents (Elt Ideal)) :
    Cert.ReferenceIdeal.Messages.toItems (F := Ideal) xwUser rows cols vals
      = Cert.KernelIdeal.Messages.toItems (F := Ideal) xwUser rows cols vals := rfl

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame is its run with the results dropped. -/
theorem frame_reference : Cert.frame_ReferenceIdeal :=
  fun m ρ _ => (θ_run Cert.ReferenceIdeal.defs _ _).mono (fun _ h c => (h c).2.2) (Cert.ReferenceIdeal.Value.run (F := Ideal) m ρ)

/-- Both runs end with the clamped user messages of the item product and the clamped item messages of the user
    product, of arguments that agree. -/
theorem algebraic : Cert.algebraic_KernelIdeal_ReferenceIdeal := by
  intro m ρ m' ρ' _ hagree
  have hk := (θ_run Cert.KernelIdeal.defs _ _).mono
    (fun r h c => (⟨(h c).1.trans (Cert.KernelIdeal.Messages.result_users m ρ c),
      (h c).2.1.trans (Cert.KernelIdeal.Messages.result_items m ρ c), (h c).2.2⟩ : _ ∧ _ ∧ _))
    (Cert.KernelIdeal.Gen.run_results (F := Ideal) m ρ)
  refine ⟨_, _, hk, ?_⟩
  refine (θ_run Cert.ReferenceIdeal.defs _ _).mono (fun r h c => ⟨(h c).1.trans ?_, (h c).2.1.trans ?_, (h c).2.2⟩)
    (Cert.ReferenceIdeal.Messages.run m' ρ')
  · obtain ⟨h0, h1, h2, h3, h4, h5, h6⟩ := hagree c
    rw [h1, h3, h4, h5, h6]
    exact congrArg clampBelow (users_same _ _ _ _)
  · obtain ⟨h0, h1, h2, h3, h4, h5, h6⟩ := hagree c
    rw [h0, h2, h4, h5, h6]
    exact congrArg clampBelow (items_same _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
